-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) (main_arg1 : FVec F S4x64x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S4x64x64x64 .f32 := Host.absf main_arg1
  let main_cst_0 : FVec F S_ .f32 := constant S_ .f32 0x7F800000#32
  let main_v5 : FVec F S4x64x64x64 .f32 := broadcastInDim S4x64x64x64 ![] bcast_S_S4x64x64x64 main_cst_0
  let main_v6 : IVec S4x64x64x64 1 := cmpf .olt main_v4 main_v5
  let main_c_1 : IVec S_ 1 := constantI S_ 1 1#1
  let main_v7 : IVec S_ 1 := (fun x v => Host.reduce IntOp.andi x v reducesTo_S4x64x64x64_S_d0_1_2_3 h_S_) main_v6 main_c_1
  let main_v8 : IVec S_ 1 := andi main_v3 main_v7
  main_v8
-- ==== Kernel.lean ====
abbrev S4x64x64x64 : Shape := ⟨4, ![4, 64, 64, 64]⟩
abbrev S4x64x4096 : Shape := ⟨3, ![4, 64, 4096]⟩
abbrev S_ : Shape := ⟨0, ![]⟩
abbrev S4x4096 : Shape := ⟨2, ![4, 4096]⟩
abbrev S4x1x4096 : Shape := ⟨3, ![4, 1, 4096]⟩
abbrev S4x4096x64 : Shape := ⟨3, ![4, 4096, 64]⟩
abbrev S16384 : Shape := ⟨1, ![16384]⟩
abbrev S1x256x64 : Shape := ⟨3, ![1, 256, 64]⟩
abbrev S1x4096x64 : Shape := ⟨3, ![1, 4096, 64]⟩
abbrev S256 : Shape := ⟨1, ![256]⟩
abbrev S256x64 : Shape := ⟨2, ![256, 64]⟩
abbrev S4096x64 : Shape := ⟨2, ![4096, 64]⟩
abbrev S256x1 : Shape := ⟨2, ![256, 1]⟩
abbrev S4096 : Shape := ⟨1, ![4096]⟩
abbrev S64x4096 : Shape := ⟨2, ![64, 4096]⟩
abbrev S256x4096 : Shape := ⟨2, ![256, 4096]⟩
abbrev S1x4096 : Shape := ⟨2, ![1, 4096]⟩

abbrev nBuf : Space → Nat
  | .hbm => 37
  | .vmem => 6
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S4x64x4096, .f32⟩
  | .hbm, ⟨4, _⟩ => ⟨S4x64x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S4x64x4096, .f32⟩
  | .hbm, ⟨13, _⟩ => ⟨S4x64x4096, .f32⟩
  | .hbm, ⟨14, _⟩ => ⟨S4x64x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x64x4096, .f32⟩
  | .hbm, ⟨23, _⟩ => ⟨S4x64x4096, .f32⟩
  | .hbm, ⟨24, _⟩ => ⟨S4x4096x64, .f32⟩
  | .hbm, ⟨25, _⟩ => ⟨S4x4096x64, .f32⟩
  | .hbm, ⟨26, _⟩ => ⟨S16384, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S256, .f32⟩
  | .local _ .vmem, ⟨5, _⟩ => ⟨S256, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x64x64x64_S4x64x4096 : S4x64x64x64.ShapeCasts S4x64x4096
  reducesTo_S4x64x4096_S4x4096_d1 : S4x64x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x64x4096_0_1_2 : S4x1x4096.BroadcastsInDim S4x64x4096 (![0, 1, 2] : Fin 3 → Fin S4x64x4096.rank)
  transposes_S4x64x4096_S4x4096x64_0_2_1 : S4x64x4096.Transposes [0, 2, 1] S4x4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x64_S256 : S256x64.Reduces [1] S256
  shapeCasts_S256_S256x1 : S256.ShapeCasts S256x1
  reduces_S4096x64_S4096 : S4096x64.Reduces [1] S4096
  bitsLt_bf16_f32 : FTy.bits .bf16 < FTy.bits .f32
  transposes_S4096x64_p1_0_S64x4096 : S4096x64.Transposes [1, 0] S64x4096
  shapeCasts_S4096_S1x4096 : S4096.ShapeCasts S1x4096
  broadcasts_S256x1_S256x4096 : S256x1.Broadcasts S256x4096
  broadcasts_S1x4096_S256x4096 : S1x4096.Broadcasts S256x4096
  reduces_S256x4096_S256 : S256x4096.Reduces [1] S256
  shapeCasts_S256x1_S256 : S256x1.ShapeCasts S256
  inb_S256_S256_0 : ∀ a, (![0] : Fin 1 → Nat) a + S256.size a ≤ S256.size a
  h_S256 : 0 < S256.numel
  shapeCasts_S16384_S4x4096 : S16384.ShapeCasts S4x4096
  bcast_S_S4x4096 : S_.BroadcastsInDim S4x4096 (![] : Fin 0 → Fin S4x4096.rank)
  reducesTo_S4x4096_S_d0_1 : S4x4096.ReducesTo [0, 1] S_
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v12) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x64x64 : Shape := ⟨4, ![4, 64, 64, 64]⟩
abbrev S4x64x4096 : Shape := ⟨3, ![4, 64, 4096]⟩
abbrev S_ : Shape := ⟨0, ![]⟩
abbrev S4x4096 : Shape := ⟨2, ![4, 4096]⟩
abbrev S4x1x4096 : Shape := ⟨3, ![4, 1, 4096]⟩
abbrev S4x4096x64 : Shape := ⟨3, ![4, 4096, 64]⟩
abbrev S4x4096x1 : Shape := ⟨3, ![4, 4096, 1]⟩
abbrev S4x4096x4096 : Shape := ⟨3, ![4, 4096, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x64x64, .f32⟩
  | .hbm, ⟨2, _⟩ => ⟨S4x64x4096, .f32⟩
  | .hbm, ⟨3, _⟩ => ⟨S4x64x4096, .f32⟩
  | .hbm, ⟨4, _⟩ => ⟨S4x64x4096, .f32⟩
  | .hbm, ⟨5, _⟩ => ⟨S_, .f32⟩
  | .hbm, ⟨6, _⟩ => ⟨S4x4096, .f32⟩
  | .hbm, ⟨7, _⟩ => ⟨S4x1x4096, .f32⟩
  | .hbm, ⟨8, _⟩ => ⟨S4x1x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S4x64x4096, .f32⟩
  | .hbm, ⟨13, _⟩ => ⟨S4x64x4096, .f32⟩
  | .hbm, ⟨14, _⟩ => ⟨S4x64x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x64x4096, .f32⟩
  | .hbm, ⟨23, _⟩ => ⟨S4x64x4096, .f32⟩
  | .hbm, ⟨24, _⟩ => ⟨S4x4096x64, .f32⟩
  | .hbm, ⟨25, _⟩ => ⟨S4x4096x64, .f32⟩
  | .hbm, ⟨26, _⟩ => ⟨S4x4096x64, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x64, .f32⟩
  | .hbm, ⟨31, _⟩ => ⟨S_, .f32⟩
  | .hbm, ⟨32, _⟩ => ⟨S4x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096, .f32⟩
  | .hbm, ⟨68, _⟩ => ⟨S_, .f32⟩
  | .hbm, ⟨69, _⟩ => ⟨S4x4096, .f32⟩
  | .hbm, ⟨70, _⟩ => ⟨S4x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x64x4096_S4x4096_d1 : S4x64x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x64x4096_0_1_2 : S4x1x4096.BroadcastsInDim S4x64x4096 (![0, 1, 2] : Fin 3 → Fin S4x64x4096.rank)
  transposes_S4x64x4096_S4x4096x64_0_2_1 : S4x64x4096.Transposes [0, 2, 1] S4x4096x64
  reducesTo_S4x4096x64_S4x4096_d2 : S4x4096x64.ReducesTo [2] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096x1 : S_.BroadcastsInDim S4x4096x1 (![] : Fin 0 → Fin S4x4096x1.rank)
  bcast_S_S4x4096 : S_.BroadcastsInDim S4x4096 (![] : Fin 0 → Fin S4x4096.rank)
  reducesTo_S4x4096_S_d0_1 : S4x4096.ReducesTo [0, 1] S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.RowLaw.lean ====
/-
  The one law that joins the two programs. For weights `w i ≥ 0` over a non-empty finite index set and their total
  `s = ∑ w`, the largest normalised weight is the largest weight, normalised:
      max_i (w i / s) = (max_i w i) / s        on the extended reals,
  with the division of the ideal floats (`x / 0` is `⊤` or `⊥` by the sign of `x`, `x / ⊤ = 0`). It holds with no
  finiteness assumption because, for every fixed `s ≥ 0`, the map `x ↦ x / s` is monotone (for `s = 0` a step
  function, for `s = ⊤` constant, otherwise a product with a non-negative factor), and a monotone map commutes with the
  maximum of a non-empty family, the maxima being folds of `max` from `⊥`.
-/
import Idealize.ShloMosaic.PureOps.Ideal

namespace Cert.RowLaw

open Idealize.ShloMosaic

/-- The exponential of an extended real is never negative (`e^⊥ = 0`, `e^⊤ = ⊤`). -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- Dividing by a fixed non-negative extended real is monotone in the numerator. -/
theorem div_mono_left {s : EReal} (hs : 0 ≤ s) : Monotone fun x => Ideal.div x s := by
  intro x y hxy
  show Ideal.div x s ≤ Ideal.div y s
  unfold Ideal.div
  by_cases h0 : s = 0
  · rw [if_pos h0, if_pos h0]
    by_cases hx : 0 < x
    · rw [if_pos hx, if_pos (lt_of_lt_of_le hx hxy)]
    · rw [if_neg hx]; exact bot_le
  · rw [if_neg h0, if_neg h0]
    exact mul_le_mul_of_nonneg_right hxy (EReal.inv_nonneg_of_nonneg hs)

/-- A monotone map commutes with the maximum (a fold of `max` from `⊥`) of a non-empty finite family. -/
theorem fold_max_comp_of_monotone {ι : Type*} (s : Finset ι) (hs : s.Nonempty) {f : EReal → EReal} (hf : Monotone f)
    (g : ι → EReal) : s.fold max ⊥ (fun i => f (g i)) = f (s.fold max ⊥ g) := by
  induction hs using Finset.Nonempty.cons_induction with
  | singleton a => rw [Finset.fold_singleton, Finset.fold_singleton, max_bot_right, max_bot_right]
  | cons a s ha hs ih => rw [Finset.fold_cons, Finset.fold_cons, ih, hf.map_max]

/-- The largest normalised weight is the largest weight, normalised. -/
theorem max_div_sum {ι : Type*} [Fintype ι] [Nonempty ι] (w : ι → EReal) (hw : ∀ i, 0 ≤ w i) :
    Finset.univ.fold max ⊥ (fun i => Ideal.div (w i) (∑ k, w k)) = Ideal.div (Finset.univ.fold max ⊥ w) (∑ k, w k) :=
  fold_max_comp_of_monotone Finset.univ Finset.univ_nonempty (div_mono_left (Finset.sum_nonneg fun i _ => hw i)) w

end Cert.RowLaw
-- ==== Proof.Row.lean ====
/-
  One query row against all keys, as functions on the extended reals. For a query row `x` and key rows `Y m` (64 channels
  each) the squared distance is `|x|² + |Y m|² − 2 ⟨x, Y m⟩`, clamped at zero, its root the distance `d m`; with
  `d_min = min_m d m` the weight is `w m = exp ((1 − d m / (d_min + ε)) / σ)`. One program normalises the LARGEST weight by
  the total (`rowMax`), the other takes the largest NORMALISED weight (`rowMaxOfNormalised`): the same number, since
  dividing by the total, a non-negative extended real, is monotone (RowLaw.lean). The float literals stay as their
  patterns (the same pattern on both sides is never evaluated); only the two reduction seeds are read: the zero pattern
  is `0`, the pattern of `-∞` is `⊥`.
-/
import proofs.«113100_j72670846648945_1_alg».proof.Proof.RowLaw
import Idealize.ShloMosaic.PureOps.Ideal.Laws

noncomputable section

namespace Cert.Row

open Idealize.ShloMosaic

/-- A row's squared norm. -/
def sqn (x : Fin 64 → EReal) : EReal := ∑ c, x c * x c
/-- Two rows' inner product. -/
def dotp (x y : Fin 64 → EReal) : EReal := ∑ c, x c * y c
/-- The distance of two rows: the root of `|x|² + |y|² − 2⟨x, y⟩` clamped at zero. -/
def dist (x y : Fin 64 → EReal) : EReal :=
  Ideal.sqrt (max (sqn x + sqn y - Ideal.ofBits .f32 0x40000000#32 * dotp x y) (Ideal.ofBits .f32 0x00000000#32))
/-- The least distance from `x` to a key row. -/
def dmin (x : Fin 64 → EReal) (Y : Fin 4096 → Fin 64 → EReal) : EReal :=
  (Finset.univ : Finset (Fin 4096)).fold min (Ideal.ofBits .f32 0x7F800000#32) (fun m => dist x (Y m))
/-- Key `m`'s weight for the query `x`. -/
def wgt (x : Fin 64 → EReal) (Y : Fin 4096 → Fin 64 → EReal) (m : Fin 4096) : EReal :=
  Ideal.exp (Ideal.div (Ideal.ofBits .f32 0x3F800000#32
      - Ideal.div (dist x (Y m)) (dmin x Y + Ideal.ofBits .f32 0x3727C5AC#32)) (Ideal.ofBits .f32 0x3DCCCCCD#32))
/-- The largest weight over the total weight. -/
def rowMax (x : Fin 64 → EReal) (Y : Fin 4096 → Fin 64 → EReal) : EReal :=
  Ideal.div ((Finset.univ : Finset (Fin 4096)).fold max (Ideal.ofBits .f32 0xFF800000#32) (wgt x Y)) (∑ m, wgt x Y m)
/-- The largest of the weights each divided by the total weight. -/
def rowMaxOfNormalised (x : Fin 64 → EReal) (Y : Fin 4096 → Fin 64 → EReal) : EReal :=
  (Finset.univ : Finset (Fin 4096)).fold max (Ideal.ofBits .f32 0xFF800000#32)
    (fun m => Ideal.div (wgt x Y m) (Ideal.ofBits .f32 0x00000000#32 + ∑ k, wgt x Y k))

/-- The pattern of `-∞` denotes the least extended real. -/
theorem ofBits_neg_inf : Ideal.ofBits .f32 0xFF800000#32 = ⊥ := by simp [Ideal.ofBits, Ideal.ieee]

/-- Every weight is an exponential, so non-negative. -/
theorem wgt_nonneg (x : Fin 64 → EReal) (Y : Fin 4096 → Fin 64 → EReal) (m : Fin 4096) : 0 ≤ wgt x Y m :=
  Cert.RowLaw.exp_nonneg _

/-- The two programs' row values agree: the largest normalised weight is the largest weight, normalised. -/
theorem rowMaxOfNormalised_eq (x : Fin 64 → EReal) (Y : Fin 4096 → Fin 64 → EReal) :
    rowMaxOfNormalised x Y = rowMax x Y := by
  unfold rowMaxOfNormalised rowMax
  rw [Ideal.ofBits_zero_f32, zero_add, ofBits_neg_inf]
  exact Cert.RowLaw.max_div_sum (wgt x Y) (wgt_nonneg x Y)

end Cert.Row

end
-- ==== Proof.LibColumnLayout.lean ====
/-
  Column layouts read at an index, and a row's minimum as a fold: general lemmas in the style of the library's
  layout lemmas (an index written by its coordinates), for the keep-dims forms a row reduction leaves behind.
  • a vector `[a]` cast to a column `[a, 1]`, and a column cast back to a vector;
  • a column `[a, 1]` broadcast along the rows of an `[a, b]` matrix;
  • a float `multi_reduction <minimumf>` over one axis, at the ideal values, as the fold of `min` over that axis.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over row `i` of a matrix, the index with column `k` inserted is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

/-- A matrix's row sums at the ideal values: at row `i` the sum of that row's entries. -/
theorem rowSum_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ v acc h hφ hacc (ix1 i) = ∑ k : Fin b, v (ix2 i k) :=
  (Ideal.multiReduction_add_single v acc h hφ hacc (ix1 i)).trans
    (Finset.sum_congr rfl fun k _ => congrArg v (lift_row h i k))

/-- A matrix's row maxima at the ideal values: at row `i` the fold of `max` over that row's entries. -/
theorem rowMax_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ v acc h hφ hacc (ix1 i)
      = (Finset.univ : Finset (Fin b)).fold max (Ideal.ofBits φ acc) (fun k => v (ix2 i k)) :=
  (Ideal.multiReduction_maximumf_single v acc h hφ hacc (ix1 i)).trans
    (congrArg (fun f => (Finset.univ : Finset (Fin b)).fold max (Ideal.ofBits φ acc) f) (funext fun k => congrArg v (lift_row h i k)))

/-- A matrix's row minima at the ideal values: at row `i` the fold of `min` over that row's entries. -/
theorem rowMin_apply {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ v acc h hφ hacc (ix1 i)
      = (Finset.univ : Finset (Fin b)).fold min (Ideal.ofBits φ acc) (fun k => v (ix2 i k)) :=
  (multiReduction_minimumf_single v acc h hφ hacc (ix1 i)).trans
    (congrArg (fun f => (Finset.univ : Finset (Fin b)).fold min (Ideal.ofBits φ acc) f) (funext fun k => congrArg v (lift_row h i k)))

/-- The pointwise exponential and square root read at an index. -/
theorem exp_apply {φ : FTy} {s : Shape} (a : FVec Ideal s φ) (i : s.Idx) : exp a i = Ideal.exp (a i) := rfl
theorem sqrt_apply {φ : FTy} {s : Shape} (a : FVec Ideal s φ) (i : s.Idx) : sqrt a i = Ideal.sqrt (a i) := rfl

end Cert.ColumnLayout
-- ==== Proof.KernelRow.lean ====
/-
  The kernel body at one row. The body reads a query block `X` (256 rows of 64 channels) and the whole key block `Y`
  (4096 rows) and stores 256 numbers; entry `r` is the row value `rowMax` of query row `r` against all key rows: the
  squared norms are row sums, the inner products one matrix product of `X` with `Y` transposed (the narrowing of the
  operands to bf16 is the identity on extended reals), the minimum, the total and the maximum are row reductions of the
  256 × 4096 distance and weight matrices, and the column casts and broadcasts only move an entry of row `r`.
-/
import proofs.«113100_j72670846648945_1_alg».proof.Proof.Gen.KernelIdeal.Skeleton
import proofs.«113100_j72670846648945_1_alg».proof.Proof.Row
import proofs.«113100_j72670846648945_1_alg».proof.Proof.LibColumnLayout

noncomputable section

namespace Cert.KernelIdeal.RowValue

open Cert.KernelIdeal Cert.KernelIdeal.Gen Idealize.ShloMosaic Idealize.ShloMosaic.ValueIdx Cert.ColumnLayout

/-! ## The matrix product of a query block with the transposed key block, at an entry -/

theorem lhs_axis0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl
theorem lhs_axis1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem rhs_axis0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem rhs_axis1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- Entry `(r, m)` of the product into a zero accumulator is the sum over the 64 channels of the products. -/
theorem matmul_rm (l : FVec Ideal S256x64 .bf16) (rt : FVec Ideal S64x4096 .bf16) (r : Fin 256) (m : Fin 4096) :
    matmul dot_S256x64_S64x4096_S256x4096_1_0_0_1_n_n none l rt (constant S256x4096 .f32 0x00000000#32) (ix2 r m)
      = ∑ k : Fin 64, l (ix2 r k) * rt (ix2 k m) := by
  unfold matmul
  rw [Ideal.matmul_constant_zero_apply, ← Equiv.sum_comp (contrEquiv1 dot_S256x64_S64x4096_S256x4096_1_0_0_1_n_n 64 rfl rfl).symm]
  refine Finset.sum_congr rfl fun k _ => ?_
  have hk := contrEquiv1_symm_val dot_S256x64_S64x4096_S256x4096_1_0_0_1_n_n 64 rfl rfl k
  have el : dot_S256x64_S64x4096_S256x4096_1_0_0_1_n_n.lhsIdx (ix2 r m) ((contrEquiv1 dot_S256x64_S64x4096_S256x4096_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S256x64_S64x4096_S256x4096_1_0_0_1_n_n.rhsIdx (ix2 r m) ((contrEquiv1 dot_S256x64_S64x4096_S256x4096_1_0_0_1_n_n 64 rfl rfl).symm k) = ix2 k m := funext fun a => Fin.ext (by
    match a with
    | ⟨0, _⟩ => exact (rhs_axis0 _ _).trans hk
    | ⟨1, _⟩ => exact rhs_axis1 _ _)
  rw [el, er]

/-! ## Row reductions with the body's own seeds

The body's reductions carry their seed patterns' own reflexivity proofs; these forms take them as they are printed. -/

theorem rowSum_f32 {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ v 0x00000000#32 h hφ hacc (ix1 i) = ∑ k : Fin b, v (ix2 i k) :=
  rowSum_apply v _ h hφ hacc i

theorem rowMax_f32 {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ v 0xFF800000#32 h hφ hacc (ix1 i)
      = (Finset.univ : Finset (Fin b)).fold max (Ideal.ofBits .f32 0xFF800000#32) (fun k => v (ix2 i k)) :=
  rowMax_apply v _ h hφ hacc i

theorem rowMin_f32 {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (i : Fin a) :
    multiReduction .minimumf [1] ⟨1, ![a]⟩ v 0x7F800000#32 h hφ hacc (ix1 i)
      = (Finset.univ : Finset (Fin b)).fold min (Ideal.ofBits .f32 0x7F800000#32) (fun k => v (ix2 i k)) :=
  rowMin_apply v _ h hφ hacc i

/-! ## The body's stored vector, entry by entry -/

/-- Entry `r` of the vector the body stores is the row value of query row `r` against the key rows. -/
theorem pay_apply (X : Vec Ideal S1x256x64 .f32) (Y : Vec Ideal S1x4096x64 .f32) (r : Fin 256) :
    k0_pay1 (F := Ideal) X Y (ix1 r)
      = Cert.Row.rowMax (fun c => X (ix3 (0 : Fin 1) r c)) (fun m c => Y (ix3 (0 : Fin 1) m c)) := by
  unfold k0_pay1
  -- the distance matrix and the weight matrix, each named once
  generalize hD : sqrt (F := Ideal) (s := S256x4096) (φ := .f32) (maximumf _ _) = Dm
  generalize hW : exp (F := Ideal) (s := S256x4096) (φ := .f32) _ = Wm
  -- an entry of the distance matrix is the distance of query row `r` and key row `m`
  have hDm : ∀ m : Fin 4096, Dm (ix2 r m)
      = Cert.Row.dist (fun c => X (ix3 (0 : Fin 1) r c)) (fun c => Y (ix3 (0 : Fin 1) m c)) := by
    intro m
    rw [← hD, sqrt_apply, maximumf_apply, subf_apply, addf_apply, mulf_apply, broadcast_apply, broadcast_apply,
      broadcastTo_a1_ab_apply, shapeCast_a_a1_apply, rowSum_f32, broadcastTo_1b_ab_apply, shapeCast_a_1a_apply,
      rowSum_f32, matmul_rm]
    unfold Cert.Row.dist Cert.Row.sqn Cert.Row.dotp
    refine congrArg Ideal.sqrt (congrArg₂ max (congrArg₂ (· - ·) (congrArg₂ (· + ·)
      (Finset.sum_congr rfl fun c _ => ?_) (Finset.sum_congr rfl fun c _ => ?_))
      (congrArg₂ (· * ·) rfl (Finset.sum_congr rfl fun c _ => ?_))) rfl)
    · rw [mulf_apply, shapeCast_1ab_ab_apply]
    · rw [mulf_apply, shapeCast_1ab_ab_apply]
    · rw [truncf_apply, transpose_ix2_apply, truncf_apply, shapeCast_1ab_ab_apply, shapeCast_1ab_ab_apply]
  -- an entry of the weight matrix is key `m`'s weight for query row `r`
  have hWm : ∀ m : Fin 4096, Wm (ix2 r m)
      = Cert.Row.wgt (fun c => X (ix3 (0 : Fin 1) r c)) (fun m c => Y (ix3 (0 : Fin 1) m c)) m := by
    intro m
    rw [← hW, exp_apply, divf_apply, subf_apply, broadcast_apply, broadcast_apply, divf_apply, broadcastTo_a1_ab_apply,
      addf_apply, broadcast_apply, shapeCast_a_a1_apply, rowMin_f32, hDm m, funext hDm]
    rfl
  rw [shapeCast_a1_a_apply, divf_apply, shapeCast_a_a1_apply, shapeCast_a_a1_apply, rowMax_f32, rowSum_f32, funext hWm]
  rfl

end Cert.KernelIdeal.RowValue

end
-- ==== Proof.KernelArray.lean ====
/-
  From blocks to the array. Grid point `t = 16 b + i` reads rows `256 i … 256 i + 255` of batch `b` of the normalised
  queries (its first window) and all 4096 rows of batch `b` of the normalised keys (its second), and writes entries
  `256 t … 256 t + 255` of the flat result. So entry `j` of the result, with `j = 4096 b + n`, is the row value of query row
  `(b, n)` against the key rows of batch `b`: one function `rowsOf` of the two arrays the region finds, and the 64 blocks
  tile the 16384 entries.
-/
import proofs.«113100_j72670846648945_1_alg».proof.Proof.Gen.KernelIdeal.Frame
import proofs.«113100_j72670846648945_1_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The batch of flat entry `j`. -/
def batchOf (j : S16384.Idx) : Fin 4 := ⟨(j 0).val / 4096, by have h : (j 0).val < 16384 := (j 0).isLt; omega⟩
/-- The query row of flat entry `j` inside its batch. -/
def queryOf (j : S16384.Idx) : Fin 4096 := ⟨(j 0).val % 4096, Nat.mod_lt _ (by decide)⟩

/-- The flat result as one function of the normalised queries `xt` and keys `yt`. -/
def rowsOf (xt yt : S4x4096x64.Idx → EReal) : S16384.Idx → EReal := fun j =>
  Cert.Row.rowMax (fun c => xt (ix3 (batchOf j) (queryOf j) c)) (fun k c => yt (ix3 (batchOf j) k c))

theorem zeros1 : (![0] : Fin 1 → Nat) = fun _ => 0 := funext fun a => by fin_cases a <;> rfl
theorem zeros3 : (![0, 0, 0] : Fin 3 → Nat) = fun _ => 0 := funext fun a => by fin_cases a <;> rfl

/-- The printed index maps over the 64 grid points: the query window follows batch and tile, the key window the batch
    alone, and the result window is block `t` of the flat result. -/
theorem block_indices : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 1) = t.val :=
  (by decide +kernel : ∀ t : Fin grid0.N, _)

/-- WHAT POINT `t` WRITES BACK is block `t` of `rowsOf` of the arrays the region finds. -/
theorem flushed_eq (c : Dev nD) (t : Fin cfg0.N) :
    (dats m 0 c).flushed 2 t
      = ((cfg0.win 2).blk t).view.read (Elt Ideal) (rowsOf (V m c main_v12) (V m c main_v13)) := by
  show (cfg0.win 2).cut (grid0.coords t) ((dats m 0 c).after 2 t) = _
  rw [after0_2]
  unfold out0_2
  rw [View.canon_unit_zero zeros1]
  simp only [View.ld_unit_zero (S := S1x256x64) zeros3, View.ld_unit_zero (S := S1x4096x64) zeros3]
  obtain ⟨e0, e1, e2, e3, e4, e5, e6⟩ := block_indices t
  have ht : t.val < 64 := lt_of_lt_of_eq t.isLt N_0
  funext j
  obtain ⟨r, rfl⟩ : ∃ r : Fin 256, j = ix1 r := ⟨j 0, eq_ix1 j⟩
  show k0_pay1 (F := Ideal) (iblk m c 0 t) (iblk m c 1 t) (ix1 r)
    = rowsOf (V m c main_v12) (V m c main_v13) (((cfg0.win 2).blk t).view.emb (ix1 r))
  refine (Cert.KernelIdeal.RowValue.pay_apply (iblk m c 0 t) (iblk m c 1 t) r).trans ?_
  unfold rowsOf
  refine congrArg₂ Cert.Row.rowMax (funext fun ch => ?_) (funext fun k => funext fun ch => ?_)
  · show V m c main_v12 (((cfg0.win 0).blk t).view.emb (ix3 (0 : Fin 1) r ch)) = V m c main_v12 (ix3 _ _ ch)
    refine congrArg (V m c main_v12) (funext fun a => Fin.ext ?_)
    match a with
    | ⟨0, _⟩ =>
      show win0_0.index t (0 : Fin 3) * 1 + 1 * 0 = (win0_2.index t (0 : Fin 1) * 256 + 1 * r.val) / 4096
      have hr : r.val < 256 := r.isLt
      omega
    | ⟨1, _⟩ =>
      show win0_0.index t (1 : Fin 3) * 256 + 1 * r.val = (win0_2.index t (0 : Fin 1) * 256 + 1 * r.val) % 4096
      have hr : r.val < 256 := r.isLt
      omega
    | ⟨2, _⟩ =>
      show win0_0.index t (2 : Fin 3) * 64 + 1 * ch.val = ch.val
      omega
  · show V m c main_v13 (((cfg0.win 1).blk t).view.emb (ix3 (0 : Fin 1) k ch)) = V m c main_v13 (ix3 _ k ch)
    refine congrArg (V m c main_v13) (funext fun a => Fin.ext ?_)
    match a with
    | ⟨0, _⟩ =>
      show win0_1.index t (0 : Fin 3) * 1 + 1 * 0 = (win0_2.index t (0 : Fin 1) * 256 + 1 * r.val) / 4096
      have hr : r.val < 256 := r.isLt
      omega
    | ⟨1, _⟩ =>
      show win0_1.index t (1 : Fin 3) * 4096 + 1 * k.val = k.val
      omega
    | ⟨2, _⟩ =>
      show win0_1.index t (2 : Fin 3) * 64 + 1 * ch.val = ch.val
      omega

/-- An entry of the flat result is in point `t`'s block iff it is one of the 256 entries from `256 t` on. -/
theorem mem_blk (t : Fin cfg0.N) (j : S16384.Idx) :
    j ∈ ((cfg0.win 2).blk t).view.set ↔ ∀ a : Fin 1, win0_2.index t a * S256.size a ≤ (j a).val
      ∧ (j a).val < win0_2.index t a * S256.size a + S256.size a := by
  show j ∈ ((View.whole main_v14).slice (win0_2.rect t)).set ↔ _
  rw [View.set_slice_whole, Rect.mem_set_unit]
  exact Iff.rfl

/-- The 64 blocks tile the flat result: entry `j` lies in block `j / 256`. -/
theorem covered (j : S16384.Idx) :
    ∃ t : Fin cfg0.N, (cfg0.win 2).flush t = true ∧ j ∈ ((cfg0.win 2).blk t).view.set := by
  have hj : (j 0).val < 16384 := (j 0).isLt
  obtain ⟨t, ht⟩ : ∃ t : Fin cfg0.N, t.val = (j 0).val / 256 :=
    ⟨⟨(j 0).val / 256, by rw [show cfg0.N = 64 from N_0]; omega⟩, rfl⟩
  obtain ⟨-, -, -, -, -, -, e6⟩ := block_indices t
  refine ⟨t, flush0_2 t, ?_⟩
  rw [mem_blk]
  intro a
  match a with
  | ⟨0, _⟩ =>
    show win0_2.index t (0 : Fin 1) * 256 ≤ (j 0).val ∧ (j 0).val < win0_2.index t (0 : Fin 1) * 256 + 256
    omega

/-- THE ARRAY after the region: every entry the row value of its query against its batch's keys. -/
theorem final (c : Dev nD) : (dats m 0 c).arrAt 2 cfg0.N = rowsOf (V m c main_v12) (V m c main_v13) :=
  (dats m 0 c).arrAt_eq_of_cover 2 (rowsOf (V m c main_v12) (V m c main_v13)) (fun t _ => flushed_eq m c t) covered

end Cert.KernelIdeal.ArrayValue

end
-- ==== Proof.RefRow.lean ====
/-
  The reference at one row. After the shared normalisation the reference holds the normalised features `xt`, `yt`
  (arrays [4, 4096, 64]) and computes, for batch `b` and query `n`, the largest over the keys `m` of the weight
  `w b n m` divided by the total weight of row `(b, n)`: the row value `rowMaxOfNormalised` of query row `xt[b, n, :]`
  against the key rows `yt[b, :, :]`. The broadcasts only repeat an entry of row `(b, n)` (or of key `(b, m)`) along the
  other axis; the host sums carry an initial `0`; the minimum and the maximum are folds over the last axis.
-/
import proofs.«113100_j72670846648945_1_alg».proof.Proof.Gen.ReferenceIdeal.Read
import proofs.«113100_j72670846648945_1_alg».proof.Proof.Row

noncomputable section

namespace Cert.ReferenceIdeal.RowValue

open Cert.ReferenceIdeal Cert.ReferenceIdeal.Gen Cert.ReferenceIdeal.Read Idealize.ShloMosaic Idealize.ShloMosaic.ValueIdx

variable (x0 x1 : (⟨S4x64x64x64, .f32⟩ : BufTy).Contents (Elt Ideal))

/-- Query row `(b, n)` of the normalised first input. -/
abbrev qrow (b : Fin 4) (n : Fin 4096) : Fin 64 → EReal := fun c => val_main_v12 (F := Ideal) x0 (ix3 b n c)
/-- The key rows of batch `b` of the normalised second input. -/
abbrev krows (b : Fin 4) : Fin 4096 → Fin 64 → EReal := fun m c => val_main_v13 (F := Ideal) x1 (ix3 b m c)

/-! ## Where the broadcasts and reductions read -/

theorem hred : S4x4096x4096.Reduces [2] S4x4096 := by decide

theorem lift_last (b : Fin 4) (n m : Fin 4096) : hred.lift (ix2 b n) m = ix3 b n m :=
  funext fun a => Fin.ext (by match a with | ⟨0, _⟩ => rfl | ⟨1, _⟩ => rfl | ⟨2, _⟩ => rfl)

theorem i15 (b : Fin 4) (n : Fin 4096) (c : Fin 64) : idx_main_v15 (ix2 b n) c = ix3 b n c :=
  funext fun a => Fin.ext (by match a with | ⟨0, _⟩ => rfl | ⟨1, _⟩ => rfl | ⟨2, _⟩ => rfl)
theorem i18 (b : Fin 4) (m : Fin 4096) (c : Fin 64) : idx_main_v18 (ix2 b m) c = ix3 b m c :=
  funext fun a => Fin.ext (by match a with | ⟨0, _⟩ => rfl | ⟨1, _⟩ => rfl | ⟨2, _⟩ => rfl)
theorem i16 (b : Fin 4) (n : Fin 4096) (u : Fin 1) : idx_main_v16 (ix3 b n u) = ix2 b n :=
  funext fun a => Fin.ext (by match a with | ⟨0, _⟩ => rfl | ⟨1, _⟩ => rfl)
theorem i19 (b : Fin 4) (u : Fin 1) (m : Fin 4096) : idx_main_v19 (ix3 b u m) = ix2 b m :=
  funext fun a => Fin.ext (by match a with | ⟨0, _⟩ => rfl | ⟨1, _⟩ => rfl)
theorem i20 (b : Fin 4) (n m : Fin 4096) : idx_main_v20 (ix3 b n m) = ix3 b n (0 : Fin 1) :=
  funext fun a => Fin.ext (by match a with | ⟨0, _⟩ => rfl | ⟨1, _⟩ => rfl | ⟨2, _⟩ => rfl)
theorem i21 (b : Fin 4) (n m : Fin 4096) : idx_main_v21 (ix3 b n m) = ix3 b (0 : Fin 1) m :=
  funext fun a => Fin.ext (by match a with | ⟨0, _⟩ => rfl | ⟨1, _⟩ => rfl | ⟨2, _⟩ => rfl)
theorem l23 (b : Fin 4) (n m : Fin 4096) (c : Fin 64) : lidx_main_v23 (ix3 b n m) c = ix3 b n c :=
  funext fun a => Fin.ext (by match a with | ⟨0, _⟩ => rfl | ⟨1, _⟩ => rfl | ⟨2, _⟩ => rfl)
theorem r23 (b : Fin 4) (n m : Fin 4096) (c : Fin 64) : ridx_main_v23 (ix3 b n m) c = ix3 b m c :=
  funext fun a => Fin.ext (by match a with | ⟨0, _⟩ => rfl | ⟨1, _⟩ => rfl | ⟨2, _⟩ => rfl)
theorem i31 (b : Fin 4) (n : Fin 4096) (u : Fin 1) : idx_main_v31 (ix3 b n u) = ix2 b n :=
  funext fun a => Fin.ext (by match a with | ⟨0, _⟩ => rfl | ⟨1, _⟩ => rfl)
theorem i34 (b : Fin 4) (n m : Fin 4096) : idx_main_v34 (ix3 b n m) = ix3 b n (0 : Fin 1) :=
  funext fun a => Fin.ext (by match a with | ⟨0, _⟩ => rfl | ⟨1, _⟩ => rfl | ⟨2, _⟩ => rfl)
theorem i41 (b : Fin 4) (n k : Fin 4096) : idx_main_v41 (ix2 b n) k = ix3 b n k :=
  funext fun a => Fin.ext (by match a with | ⟨0, _⟩ => rfl | ⟨1, _⟩ => rfl | ⟨2, _⟩ => rfl)
theorem i42 (b : Fin 4) (n : Fin 4096) (u : Fin 1) : idx_main_v42 (ix3 b n u) = ix2 b n :=
  funext fun a => Fin.ext (by match a with | ⟨0, _⟩ => rfl | ⟨1, _⟩ => rfl)
theorem i43 (b : Fin 4) (n m : Fin 4096) : idx_main_v43 (ix3 b n m) = ix3 b n (0 : Fin 1) :=
  funext fun a => Fin.ext (by match a with | ⟨0, _⟩ => rfl | ⟨1, _⟩ => rfl | ⟨2, _⟩ => rfl)

/-- The zero pattern is the neutral element of the host's sums. -/
theorem zero_add_f32 (x : EReal) : Ideal.ofBits .f32 0x00000000#32 + x = x := by
  rw [Ideal.ofBits_zero_f32, zero_add]

/-! ## The stages at a row -/

/-- The squared norm of query row `(b, n)`. -/
theorem sqx_apply (b : Fin 4) (n : Fin 4096) :
    val_main_v15 (F := Ideal) x0 (ix2 b n) = Cert.Row.sqn (qrow x0 b n) := by
  rw [val_main_v15_apply, val_main_cst_1_apply]
  refine (zero_add_f32 _).trans (Finset.sum_congr rfl fun c _ => ?_)
  rw [val_main_v14_apply, i15]
  rfl

/-- The squared norm of key row `(b, m)`. -/
theorem sqy_apply (b : Fin 4) (m : Fin 4096) :
    val_main_v18 (F := Ideal) x1 (ix2 b m) = Cert.Row.sqn (krows x1 b m) := by
  rw [val_main_v18_apply, val_main_cst_2_apply]
  refine (zero_add_f32 _).trans (Finset.sum_congr rfl fun c _ => ?_)
  rw [val_main_v17_apply, i18]
  rfl

/-- The distance of query `(b, n)` and key `(b, m)`. -/
theorem dist_apply (b : Fin 4) (n m : Fin 4096) :
    val_main_v29 (F := Ideal) x0 x1 (ix3 b n m) = Cert.Row.dist (qrow x0 b n) (krows x1 b m) := by
  rw [val_main_v29_apply, val_main_v28_apply, val_main_v26_apply, val_main_v22_apply, val_main_v20_apply, i20,
    val_main_v16_apply, i16, sqx_apply, val_main_v21_apply, i21, val_main_v19_apply, i19, sqy_apply,
    val_main_v25_apply, val_main_v24_apply, val_main_cst_3_apply, val_main_v23_apply, val_main_v27_apply,
    val_main_cst_4_apply]
  unfold Cert.Row.dist Cert.Row.dotp
  refine congrArg Ideal.sqrt (congrArg₂ max (congrArg₂ (· - ·) rfl
    (congrArg₂ (· * ·) rfl (Finset.sum_congr rfl fun c _ => ?_))) rfl)
  rw [l23, r23]

/-- The least distance from query `(b, n)` to a key of its batch. -/
theorem dmin_apply (b : Fin 4) (n : Fin 4096) :
    val_main_v30 (F := Ideal) x0 x1 (ix2 b n) = Cert.Row.dmin (qrow x0 b n) (krows x1 b) := by
  unfold val_main_v30
  rw [Host.reduce_eq_fold_single FloatOps.minimumf _ _ reducesTo_S4x4096x4096_S4x4096_d2 hred h_S_ (ix2 b n)]
  unfold Cert.Row.dmin
  show (Finset.univ : Finset (Fin 4096)).fold min (Ideal.ofBits .f32 0x7F800000#32)
    (fun m : Fin 4096 => val_main_v29 (F := Ideal) x0 x1 (hred.lift (ix2 b n) m)) = _
  exact congrArg (fun f => (Finset.univ : Finset (Fin 4096)).fold min (Ideal.ofBits .f32 0x7F800000#32) f)
    (funext fun m : Fin 4096 => by rw [lift_last]; exact dist_apply x0 x1 b n m)

/-- Key `(b, m)`'s weight for query `(b, n)`. -/
theorem wgt_apply (b : Fin 4) (n m : Fin 4096) :
    val_main_v40 (F := Ideal) x0 x1 (ix3 b n m) = Cert.Row.wgt (qrow x0 b n) (krows x1 b) m := by
  rw [val_main_v40_apply, val_main_v39_apply, val_main_v38_apply, val_main_cst_8_apply, val_main_v37_apply,
    val_main_v36_apply, val_main_cst_7_apply, val_main_v35_apply, dist_apply, val_main_v34_apply, i34,
    val_main_v33_apply, val_main_v31_apply, i31, dmin_apply, val_main_v32_apply, val_main_cst_6_apply]
  rfl

/-- The reference's value at row `(b, n)`: the largest normalised weight. -/
theorem row_apply (b : Fin 4) (n : Fin 4096) :
    val_main_v45 (F := Ideal) x0 x1 (ix2 b n) = Cert.Row.rowMaxOfNormalised (qrow x0 b n) (krows x1 b) := by
  unfold val_main_v45
  rw [Host.reduce_eq_fold_single FloatOps.maximumf _ _ reducesTo_S4x4096x4096_S4x4096_d2 hred h_S_ (ix2 b n)]
  unfold Cert.Row.rowMaxOfNormalised
  show (Finset.univ : Finset (Fin 4096)).fold max (Ideal.ofBits .f32 0xFF800000#32)
    (fun m : Fin 4096 => val_main_v44 (F := Ideal) x0 x1 (hred.lift (ix2 b n) m)) = _
  refine congrArg (fun f => (Finset.univ : Finset (Fin 4096)).fold max (Ideal.ofBits .f32 0xFF800000#32) f)
    (funext fun m : Fin 4096 => ?_)
  rw [lift_last, val_main_v44_apply, wgt_apply, val_main_v43_apply, i43, val_main_v42_apply, i42,
    val_main_v41_apply, val_main_cst_9_apply]
  refine congrArg (fun s => Ideal.div _ (Ideal.ofBits .f32 0x00000000#32 + s)) (Finset.sum_congr rfl fun k _ => ?_)
  rw [i41, wgt_apply]

end Cert.ReferenceIdeal.RowValue

end
-- ==== Proof.Bridge.lean ====
/-
  The two programs meet. Both normalise the inputs the same way (the same host lines, so the same arrays `xt`, `yt`),
  both end with the same host lines (reshape to [4, 4096], add ε, mean, log, negate); between them the kernel's flat result
  holds at `4096 b + n` the largest weight of row `(b, n)` over the row's total, the reference's [4, 4096] array at
  `(b, n)` the largest of the weights each over the total: equal by `Row.rowMaxOfNormalised_eq`.
-/
import proofs.«113100_j72670846648945_1_alg».proof.Proof.KernelArray
import proofs.«113100_j72670846648945_1_alg».proof.Proof.RefRow
import Idealize.ShloMosaic.Lib.StableHlo.Run

set_option maxRecDepth 16384

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen Cert.KernelIdeal.ArrayValue

variable (m : (ℓ : Loc nD τ sig) → Buf (Elt Ideal) ℓ) (ρ : Dev nD → PrngReg)

/-- The region finds the normalised queries the reference computes from the first input. -/
theorem V_xt (c : Dev nD) : (V m c main_v12 : S4x4096x64.Idx → EReal)
    = Cert.ReferenceIdeal.Read.val_main_v12 (F := Ideal) (m ((c.tc : Thread nD τ).loc main_arg0)) := by
  dsimp only [V, V0]
  simp only [hostOps0, hostOps0_1, hostOps0_2, hostOps0_3, hostOps0_4, List.flatten_cons, List.flatten_nil, List.append_nil,
    List.cons_append, List.nil_append]
  after_results
  rfl

/-- The region finds the normalised keys the reference computes from the second input. -/
theorem V_yt (c : Dev nD) : (V m c main_v13 : S4x4096x64.Idx → EReal)
    = Cert.ReferenceIdeal.Read.val_main_v13 (F := Ideal) (m ((c.tc : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

/-- The flat result reshaped to [4, 4096] is the reference's array of largest normalised weights: entry `(b, n)` reads the
    flat entry `4096 b + n`, whose batch is `b` and whose query is `n`. -/
theorem mid_eq (c : Dev nD) :
    shapeCast S4x4096 (rowsOf (V m c main_v12) (V m c main_v13)) shapeCasts_S16384_S4x4096
      = Cert.ReferenceIdeal.Read.val_main_v45 (F := Ideal) (m ((c.tc : Thread nD τ).loc main_arg0))
          (m ((c.tc : Thread nD τ).loc main_arg1)) := by
  funext i
  obtain ⟨b, n, rfl⟩ : ∃ (b : Fin 4) (n : Fin 4096), i = ix2 b n := ⟨i 0, i 1, eq_ix2 i⟩
  have hb : b.val < 4 := b.isLt
  have hn : n.val < 4096 := n.isLt
  refine Eq.trans ?_ ((Cert.ReferenceIdeal.RowValue.row_apply _ _ b n).trans (Cert.Row.rowMaxOfNormalised_eq _ _)).symm
  rw [shapeCast_apply _ shapeCasts_S16384_S4x4096 (ix2 b n) (ix1 ⟨b.val * 4096 + n.val, by omega⟩)
    (by rw [Shape.rowMajor_val_one, Shape.rowMajor_val_two]; rfl), V_xt, V_yt]
  unfold rowsOf
  have eb : batchOf (ix1 (⟨b.val * 4096 + n.val, by omega⟩ : Fin 16384)) = b :=
    Fin.ext (by show (b.val * 4096 + n.val) / 4096 = b.val; omega)
  have en : queryOf (ix1 (⟨b.val * 4096 + n.val, by omega⟩ : Fin 16384)) = n :=
    Fin.ext (by show (b.val * 4096 + n.val) % 4096 = n.val; omega)
  rw [eb, en]

/-- The kernel program's result is the reference's last stage of the same inputs. -/
theorem result_eq (c : Dev nD) :
    Pipeline.afterTail₀ cfgs (dats m) 0 (V0 m) [hostOps1] c main_v21
      = Cert.ReferenceIdeal.Read.val_main_v51 (F := Ideal) (m ((c.tc : Thread nD τ).loc main_arg0))
          (m ((c.tc : Thread nD τ).loc main_arg1)) := by
  unfold Pipeline.afterTail₀
  show StableHlo.after hostOps1 _ (Proc.devRef .tc main_v21) = _
  after_results
  have hw : Pipeline.withArrays (cfgs 0).spec c (V0 m c) (fun w => (dats m 0 c).arrAt w (cfgs 0).N)
      (Proc.devRef .tc main_v14) = rowsOf (V m c main_v12) (V m c main_v13) :=
    (Pipeline.withArrays_arr spec0 launch0.win.arr_inj c _ _ 2).trans (final m c)
  rw [hw]
  unfold Cert.ReferenceIdeal.Read.val_main_v51 Cert.ReferenceIdeal.Read.val_main_v50 Cert.ReferenceIdeal.Read.val_main_v49
    Cert.ReferenceIdeal.Read.val_main_v48 Cert.ReferenceIdeal.Read.val_main_v47
  rw [← mid_eq m c]
  rfl

/-- The kernel program's run with its result named: every weakly fair execution ends with the result at the reference's
    last stage of the inputs, the inputs unchanged (the frame run, its host tail read). -/
theorem run : θ_run defs (onTc (τ := τ) (main (F := Ideal))) ⟨m, fun _ => 0, ρ⟩ fun r => ∀ c : Dev nD,
      r.2.mem ((c.tc : Thread nD τ).loc main_v21)
        = Cert.ReferenceIdeal.Read.val_main_v51 (F := Ideal) (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Bridge

end
-- ==== Proof.lean ====
/-
  A contextual-loss score: both inputs are normalised along the channel axis, every query row's distances to all key rows
  of its batch become weights `exp ((1 − d / (d_min + ε)) / σ)`, and the score is `−log` of the mean over all rows of
  (largest weight share + ε). The kernel takes, per row, the largest weight over the total weight; the reference the
  largest of the weights each over the total. On the extended reals these agree for every input (dividing by a
  non-negative total is monotone: Proof/RowLaw.lean), so the precondition is not used by the value claim.

  The pieces: Proof/Row.lean (the row functions and their equality), Proof/KernelRow.lean (the kernel body's stored vector,
  entry by entry), Proof/KernelArray.lean (the 64 blocks tile the flat result), Proof/RefRow.lean (the reference's array at
  a row, over its generated read-at-an-index lemmas), Proof/Bridge.lean (the shared host lines before and after, and the
  kernel program's run with its result named). The frames of the two kernel programs are the generated frame
  certificates; the reference's frame is its generated run with the result dropped. The ideal pass rewrote nothing, so
  the sanctioned-idealization claim is `True`.
-/
import proofs.«113100_j72670846648945_1_alg».proof.Defs
import proofs.«113100_j72670846648945_1_alg».proof.Proof.Gen.Kernel
import proofs.«113100_j72670846648945_1_alg».proof.Proof.Gen.Kernel.Skeleton
import proofs.«113100_j72670846648945_1_alg».proof.Proof.Gen.Kernel.Launch
import proofs.«113100_j72670846648945_1_alg».proof.Proof.Gen.Kernel.Points
import proofs.«113100_j72670846648945_1_alg».proof.Proof.Gen.Kernel.Frame
import proofs.«113100_j72670846648945_1_alg».proof.Proof.Gen.KernelIdeal
import proofs.«113100_j72670846648945_1_alg».proof.Proof.Gen.KernelIdeal.Skeleton
import proofs.«113100_j72670846648945_1_alg».proof.Proof.Gen.KernelIdeal.Launch
import proofs.«113100_j72670846648945_1_alg».proof.Proof.Gen.KernelIdeal.Points
import proofs.«113100_j72670846648945_1_alg».proof.Proof.Gen.KernelIdeal.Frame
import proofs.«113100_j72670846648945_1_alg».proof.Proof.Gen.ReferenceIdeal
import proofs.«113100_j72670846648945_1_alg».proof.Proof.Gen.ReferenceIdeal.Run
import proofs.«113100_j72670846648945_1_alg».proof.Proof.Gen.ReferenceIdeal.Read
import proofs.«113100_j72670846648945_1_alg».proof.Proof.Gen.Pre_finite_inputs
import proofs.«113100_j72670846648945_1_alg».proof.Proof.Bridge
import Idealize.ShloMosaic.Adequacy
import Idealize.ShloMosaic.Init

noncomputable section

namespace Cert.Proof

open Idealize.ShloMosaic Idealize.SL.Sem

/-- The word-level kernel program runs and keeps its inputs: its generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and keeps its inputs: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree, both idealized programs end at the reference's last stage of the kernel's inputs. -/
theorem algebraic : Cert.algebraic_KernelIdeal_ReferenceIdeal := by
  intro m ρ m' ρ' _ hagree
  refine ⟨_, Cert.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
